-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000x128 : Shape := ⟨2, ![1600000, 128]⟩
abbrev S3200000 : Shape := ⟨1, ![3200000]⟩
abbrev S128x64 : Shape := ⟨2, ![128, 64]⟩
abbrev S64 : Shape := ⟨1, ![64]⟩
abbrev S1 : Shape := ⟨1, ![1]⟩
abbrev S_ : Shape := ⟨0, ![]⟩

class Facts : Prop where
  bcast_S_S1600000x128 : S_.BroadcastsInDim S1600000x128 (![] : Fin 0 → Fin S1600000x128.rank)
  reducesTo_S1600000x128_S_d0_1 : S1600000x128.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S1600000x128 .f32) (main_arg1 : IVec S3200000 32) (main_arg2 : IVec S3200000 32) (main_arg3 : FVec F S3200000 .f32) (main_arg4 : FVec F S128x64 .f32) (main_arg5 : FVec F S64 .f32) (main_arg6 : FVec F S1 .f32) : IVec S_ 1 :=
  let main_v0 : FVec F S1600000x128 .f32 := Host.absf main_arg0
  let main_cst : FVec F S_ .f32 := constant S_ .f32 0x7F800000#32
  let main_v1 : FVec F S1600000x128 .f32 := broadcastInDim S1600000x128 ![] bcast_S_S1600000x128 main_cst
  let main_v2 : IVec S1600000x128 1 := cmpf .olt main_v0 main_v1
  let main_c : IVec S_ 1 := constantI S_ 1 1#1
  let main_v3 : IVec S_ 1 := (fun x v => Host.reduce IntOp.andi x v reducesTo_S1600000x128_S_d0_1 h_S_) main_v2 main_c
  let main_v4 : FVec F S3200000 .f32 := Host.absf main_arg3
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_v13 main_v16
-- ==== Kernel.lean ====
abbrev S1600000x128 : Shape := ⟨2, ![1600000, 128]⟩
abbrev S3200000 : Shape := ⟨1, ![3200000]⟩
abbrev S128x64 : Shape := ⟨2, ![128, 64]⟩
abbrev S64 : Shape := ⟨1, ![64]⟩
abbrev S1 : Shape := ⟨1, ![1]⟩
abbrev S1x64 : Shape := ⟨2, ![1, 64]⟩
abbrev S1600000x64 : Shape := ⟨2, ![1600000, 64]⟩
abbrev S8000x128 : Shape := ⟨2, ![8000, 128]⟩
abbrev S8000x64 : Shape := ⟨2, ![8000, 64]⟩
abbrev S3200000x1 : Shape := ⟨2, ![3200000, 1]⟩
abbrev S_ : Shape := ⟨0, ![]⟩
abbrev S3200000x64 : Shape := ⟨2, ![3200000, 64]⟩
abbrev S100000x64 : Shape := ⟨2, ![100000, 64]⟩

abbrev nBuf : Space → Nat
  | .hbm => 32
  | .vmem => 6
  | .smem => 0
  | _ => 0

abbrev bufTy : (tb : Table) → Fin (tcTables nBuf tb) → BufTy
  | .hbm, ⟨0, _⟩ => ⟨S1600000x128, .f32⟩
  | .hbm, ⟨1, _⟩ => ⟨S3200000, .i32⟩
  | .hbm, ⟨2, _⟩ => ⟨S3200000, .i32⟩
  | .hbm, ⟨3, _⟩ => ⟨S3200000, .f32⟩
  | .hbm, ⟨4, _⟩ => ⟨S128x64, .f32⟩
  | .hbm, ⟨5, _⟩ => ⟨S64, .f32⟩
  | .hbm, ⟨6, _⟩ => ⟨S1, .f32⟩
  | .hbm, ⟨7, _⟩ => ⟨S1x64, .f32⟩
  | .hbm, ⟨8, _⟩ => ⟨S1600000x64, .f32⟩
  | .hbm, ⟨9, _⟩ => ⟨S3200000x1, .f32⟩
  | .hbm, ⟨10, _⟩ => ⟨S_, .i32⟩
  | .hbm, ⟨11, _⟩ => ⟨S3200000, .i32⟩
  | .hbm, ⟨12, _⟩ => ⟨S3200000, .i1⟩
  | .hbm, ⟨13, _⟩ => ⟨S_, .i32⟩
  | .hbm, ⟨14, _⟩ => ⟨S3200000, .i32⟩
  | .hbm, ⟨15, _⟩ => ⟨S3200000, .i32⟩
  | .hbm, ⟨16, _⟩ => ⟨S3200000, .i32⟩
  | .hbm, ⟨17, _⟩ => ⟨S3200000x1, .i32⟩
  | .hbm, ⟨18, _⟩ => ⟨S3200000x64, .f32⟩
  | .hbm, ⟨19, _⟩ => ⟨S3200000x64, .f32⟩
  | .hbm, ⟨20, _⟩ => ⟨S3200000x64, .f32⟩
  | .hbm, ⟨21, _⟩ => ⟨S_, .f32⟩
  | .hbm, ⟨22, _⟩ => ⟨S100000x64, .f32⟩
  | .hbm, ⟨23, _⟩ => ⟨S3200000x1, .i32⟩
  | .hbm, ⟨24, _⟩ => ⟨S100000x64, .f32⟩
  | .hbm, ⟨25, _⟩ => ⟨S_, .f32⟩
  | .hbm, ⟨26, _⟩ => ⟨S_, .f32⟩
  | .hbm, ⟨27, _⟩ => ⟨S100000x64, .f32⟩
  | .hbm, ⟨28, _⟩ => ⟨S100000x64, .i1⟩
  | .hbm, ⟨29, _⟩ => ⟨S100000x64, .f32⟩
  | .hbm, ⟨30, _⟩ => ⟨S100000x64, .f32⟩
  | .hbm, ⟨31, _⟩ => ⟨S100000x64, .f32⟩
  | .local _ .vmem, ⟨0, _⟩ => ⟨S8000x128, .f32⟩
  | .local _ .vmem, ⟨1, _⟩ => ⟨S8000x128, .f32⟩
  | .local _ .vmem, ⟨2, _⟩ => ⟨S128x64, .f32⟩
  | .local _ .vmem, ⟨3, _⟩ => ⟨S1x64, .f32⟩
  | .local _ .vmem, ⟨4, _⟩ => ⟨S8000x64, .f32⟩
  | .local _ .vmem, ⟨5, _⟩ => ⟨S8000x64, .f32⟩
  | _, _ => ⟨S1600000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64_S1x64 : S64.ShapeCasts S1x64
  inb_S8000x128_S8000x128_0_0 : ∀ a, (![0, 0] : Fin 2 → Nat) a + S8000x128.size a ≤ S8000x128.size a
  h_S8000x128 : 0 < S8000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S8000x64_S8000x64_0_0 : ∀ a, (![0, 0] : Fin 2 → Nat) a + S8000x64.size a ≤ S8000x64.size a
  h_S8000x64 : 0 < S8000x64.numel
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S1_S_ : S1.ShapeCasts S_
  dot_S8000x128_S128x64_S8000x64_1_0_0_1_n_n_wf : DotDims.WF S8000x128 S128x64 S8000x64 [1] [0] [0] [1] [] []
  gather_S1600000x64_S3200000x1_S3200000x64_1_0_n_n_0_1_164_wf : GatherDims.WF S1600000x64 S3200000x1 S3200000x64 [1] [0] [] [0] [] 1 ![1, 64]
  scatter_S100000x64_S3200000x1_S3200000x64_1_0_0_1_wf : ScatterDims.WF S100000x64 S3200000x1 S3200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S1600000x128.size a
  hwx0_0 : ∀ i : grid0.Coords, EltTy.bits .f32 = 32 ∨ (Rect.block (s := S1600000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x64.size a ≤ S1600000x64.size a
  hwx0_3 : ∀ i : grid0.Coords, EltTy.bits .f32 = 32 ∨ (Rect.block (s := S1600000x64) S8000x64.size (cc0_transform_3 i) (hinb0_3 i)).WholeWords (EltTy.packing .f32)

variable [Facts₀]

def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def gather_S1600000x64_S3200000x1_S3200000x64_1_0_n_n_0_1_164 : GatherDims S1600000x64 S3200000x1 S3200000x64 where
  offsetDims := [1]
  collapsedSliceDims := [0]
  operandBatchingDims := []
  startIndicesBatchingDims := []
  startIndexMap := [0]
  indexVectorDim := 1
  sliceSizes := ![1, 64]
  wf := gather_S1600000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

abbrev win0_0 : Pipeline.Window sig grid0 :=
  Pipeline.Window.ofSpec (Memref.whole main_arg0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1600000x128 : Shape := ⟨2, ![1600000, 128]⟩
abbrev S3200000 : Shape := ⟨1, ![3200000]⟩
abbrev S128x64 : Shape := ⟨2, ![128, 64]⟩
abbrev S64 : Shape := ⟨1, ![64]⟩
abbrev S1 : Shape := ⟨1, ![1]⟩
abbrev S1600000x64 : Shape := ⟨2, ![1600000, 64]⟩
abbrev S1x64 : Shape := ⟨2, ![1, 64]⟩
abbrev S3200000x1 : Shape := ⟨2, ![3200000, 1]⟩
abbrev S_ : Shape := ⟨0, ![]⟩
abbrev S3200000x64 : Shape := ⟨2, ![3200000, 64]⟩
abbrev S100000x64 : Shape := ⟨2, ![100000, 64]⟩

abbrev nBuf : Space → Nat
  | .hbm => 34
  | .vmem => 0
  | .smem => 0
  | _ => 0

abbrev bufTy : (tb : Table) → Fin (tcTables nBuf tb) → BufTy
  | .hbm, ⟨0, _⟩ => ⟨S1600000x128, .f32⟩
  | .hbm, ⟨1, _⟩ => ⟨S3200000, .i32⟩
  | .hbm, ⟨2, _⟩ => ⟨S3200000, .i32⟩
  | .hbm, ⟨3, _⟩ => ⟨S3200000, .f32⟩
  | .hbm, ⟨4, _⟩ => ⟨S128x64, .f32⟩
  | .hbm, ⟨5, _⟩ => ⟨S64, .f32⟩
  | .hbm, ⟨6, _⟩ => ⟨S1, .f32⟩
  | .hbm, ⟨7, _⟩ => ⟨S1600000x64, .f32⟩
  | .hbm, ⟨8, _⟩ => ⟨S1x64, .f32⟩
  | .hbm, ⟨9, _⟩ => ⟨S1600000x64, .f32⟩
  | .hbm, ⟨10, _⟩ => ⟨S1600000x64, .f32⟩
  | .hbm, ⟨11, _⟩ => ⟨S3200000x1, .f32⟩
  | .hbm, ⟨12, _⟩ => ⟨S_, .i32⟩
  | .hbm, ⟨13, _⟩ => ⟨S3200000, .i32⟩
  | .hbm, ⟨14, _⟩ => ⟨S3200000, .i1⟩
  | .hbm, ⟨15, _⟩ => ⟨S_, .i32⟩
  | .hbm, ⟨16, _⟩ => ⟨S3200000, .i32⟩
  | .hbm, ⟨17, _⟩ => ⟨S3200000, .i32⟩
  | .hbm, ⟨18, _⟩ => ⟨S3200000, .i32⟩
  | .hbm, ⟨19, _⟩ => ⟨S3200000x1, .i32⟩
  | .hbm, ⟨20, _⟩ => ⟨S3200000x64, .f32⟩
  | .hbm, ⟨21, _⟩ => ⟨S3200000x64, .f32⟩
  | .hbm, ⟨22, _⟩ => ⟨S3200000x64, .f32⟩
  | .hbm, ⟨23, _⟩ => ⟨S_, .f32⟩
  | .hbm, ⟨24, _⟩ => ⟨S100000x64, .f32⟩
  | .hbm, ⟨25, _⟩ => ⟨S3200000x1, .i32⟩
  | .hbm, ⟨26, _⟩ => ⟨S100000x64, .f32⟩
  | .hbm, ⟨27, _⟩ => ⟨S_, .f32⟩
  | .hbm, ⟨28, _⟩ => ⟨S_, .f32⟩
  | .hbm, ⟨29, _⟩ => ⟨S100000x64, .f32⟩
  | .hbm, ⟨30, _⟩ => ⟨S100000x64, .i1⟩
  | .hbm, ⟨31, _⟩ => ⟨S100000x64, .f32⟩
  | .hbm, ⟨32, _⟩ => ⟨S100000x64, .f32⟩
  | .hbm, ⟨33, _⟩ => ⟨S100000x64, .f32⟩
  | _, _ => ⟨S1600000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S1_S_ : S1.ShapeCasts S_
  dot_S1600000x128_S128x64_S1600000x64_1_0_0_1_n_n_wf : DotDims.WF S1600000x128 S128x64 S1600000x64 [1] [0] [0] [1] [] []
  gather_S1600000x64_S3200000x1_S3200000x64_1_0_n_n_0_1_164_wf : GatherDims.WF S1600000x64 S3200000x1 S3200000x64 [1] [0] [] [0] [] 1 ![1, 64]
  scatter_S100000x64_S3200000x1_S3200000x64_1_0_0_1_wf : ScatterDims.WF S100000x64 S3200000x1 S3200000x64 [1] [0] [0] 1

variable [Facts₀]

def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf
def gather_S1600000x64_S3200000x1_S3200000x64_1_0_n_n_0_1_164 : GatherDims S1600000x64 S3200000x1 S3200000x64 where
  offsetDims := [1]
  collapsedSliceDims := [0]
  operandBatchingDims := []
  startIndicesBatchingDims := []
  startIndexMap := [0]
  indexVectorDim := 1
  sliceSizes := ![1, 64]
  wf := gather_S1600000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

class Facts : Prop extends Facts₀ where

variable [Facts]
-- ==== Proof.KernelPayload.lean ====
/-
  What the kernel body stores, entry by entry.

  At one grid point the body loads a block of 8000 rows of the features (`x`, 8000 × 128), the whole weight matrix
  (`w`, 128 × 64) and the bias as a one-row matrix (`b`, 1 × 64), narrows `x` and `w` to half width, multiplies them
  into a zero accumulator, and adds the bias row broadcast down the 8000 rows. Over the extended reals the
  narrowing is the identity and the zero accumulator adds nothing, so entry (p, q) of what it stores is

      Σ_{k < 128} x (p, k) · w (k, q) + b (0, q).
-/
import proofs.«427088_j18648747999739_3_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-! ## The operand indices of the block product

For output entry `i` = (row, column) and contraction index `q`, the left operand is read at (row, q) and the right
at (q, column). -/

theorem lhs_axis0 (i : S8000x64.Idx) (q : dot_S8000x128_S128x64_S8000x64_1_0_0_1_n_n.contr.Idx) :
    (dot_S8000x128_S128x64_S8000x64_1_0_0_1_n_n.lhsIdx i q 0).val = (i 0).val := by
  unfold DotDims.lhsIdx
  rw [dif_neg (show ¬(0 : Fin S8000x128.rank) ∈ dot_S8000x128_S128x64_S8000x64_1_0_0_1_n_n.lhsBatch by decide), dif_pos (show (0 : Fin S8000x128.rank) ∈ dot_S8000x128_S128x64_S8000x64_1_0_0_1_n_n.lhsNonContracting by decide)]
  rfl
theorem lhs_axis1 (i : S8000x64.Idx) (q : dot_S8000x128_S128x64_S8000x64_1_0_0_1_n_n.contr.Idx) :
    (dot_S8000x128_S128x64_S8000x64_1_0_0_1_n_n.lhsIdx i q 1).val = (q ⟨0, by decide⟩).val :=
  dot_S8000x128_S128x64_S8000x64_1_0_0_1_n_n.lhsIdx_val_of_single rfl i q
theorem rhs_axis0 (i : S8000x64.Idx) (q : dot_S8000x128_S128x64_S8000x64_1_0_0_1_n_n.contr.Idx) :
    (dot_S8000x128_S128x64_S8000x64_1_0_0_1_n_n.rhsIdx i q 0).val = (q ⟨0, by decide⟩).val :=
  dot_S8000x128_S128x64_S8000x64_1_0_0_1_n_n.rhsIdx_val_of_single rfl i q
theorem rhs_axis1 (i : S8000x64.Idx) (q : dot_S8000x128_S128x64_S8000x64_1_0_0_1_n_n.contr.Idx) :
    (dot_S8000x128_S128x64_S8000x64_1_0_0_1_n_n.rhsIdx i q 1).val = (i 1).val := by
  unfold DotDims.rhsIdx
  rw [dif_neg (show ¬(1 : Fin S128x64.rank) ∈ dot_S8000x128_S128x64_S8000x64_1_0_0_1_n_n.rhsBatch by decide), dif_pos (show (1 : Fin S128x64.rank) ∈ dot_S8000x128_S128x64_S8000x64_1_0_0_1_n_n.rhsNonContracting by decide)]
  rfl

/-- The block product into a zero accumulator, at entry (p, q): the dot product of row `p` of the left block with
    column `q` of the right one. -/
theorem blockProduct_apply (l : FVec Ideal S8000x128 .bf16) (r : FVec Ideal S128x64 .bf16) (p : Fin 8000) (q : Fin 64) :
    matmul (F := Ideal) dot_S8000x128_S128x64_S8000x64_1_0_0_1_n_n none l r (constant (F := Ideal) S8000x64 .f32 0x00000000#32) (ix2 p q)
      = ∑ k : Fin 128, l (ix2 p k) * r (ix2 k q) := by
  show FloatOps.matmul dot_S8000x128_S128x64_S8000x64_1_0_0_1_n_n none l r (constant (F := Ideal) S8000x64 .f32 0x00000000#32) (ix2 p q) = _
  rw [Ideal.matmul_constant_zero_apply, ← Equiv.sum_comp (ValueIdx.contrEquiv1 dot_S8000x128_S128x64_S8000x64_1_0_0_1_n_n 128 rfl rfl).symm]
  refine Finset.sum_congr rfl fun k _ => ?_
  have hk := ValueIdx.contrEquiv1_symm_val dot_S8000x128_S128x64_S8000x64_1_0_0_1_n_n 128 rfl rfl k
  have el : dot_S8000x128_S128x64_S8000x64_1_0_0_1_n_n.lhsIdx (ix2 p q) ((ValueIdx.contrEquiv1 dot_S8000x128_S128x64_S8000x64_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S8000x128_S128x64_S8000x64_1_0_0_1_n_n.rhsIdx (ix2 p q) ((ValueIdx.contrEquiv1 dot_S8000x128_S128x64_S8000x64_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The bias row broadcast down the rows, at entry (p, q): the bias at (0, q). -/
theorem biasRows_apply (b : FVec Ideal S1x64 .f32) (p : Fin 8000) (q : Fin 64) :
    broadcastTo S8000x64 (shapeCast S1x64 b shapeCasts_S1x64_S1x64) broadcasts_S1x64_S8000x64 (ix2 p q) = b (ix2 0 q) := by
  rw [shapeCast_self]
  exact broadcastTo_apply b broadcasts_S1x64_S8000x64 (ix2 p q) (ix2 0 q) (fun a => match a with
    | ⟨0, _⟩ => by show (0 : Nat) = if (1 : Nat) = 1 then 0 else _; rw [if_pos rfl]
    | ⟨1, _⟩ => by show q.val = if (64 : Nat) = 1 then 0 else q.val; rw [if_neg (by decide)])

/-- THE STORED BLOCK, entry by entry: row `p` of the feature block times column `q` of the weights, plus the bias at `q`. -/
theorem stored_apply (x : Vec Ideal S8000x128 .f32) (w : Vec Ideal S128x64 .f32) (b : Vec Ideal S1x64 .f32) (p : Fin 8000) (q : Fin 64) :
    k0_pay1 (F := Ideal) x w b (ix2 p q) = (∑ k : Fin 128, x (ix2 p k) * w (ix2 k q)) + b (ix2 0 q) := by
  unfold k0_pay1
  refine (addf_apply _ _ _).trans ?_
  refine congrArg₂ (· + ·) ?_ ?_
  · exact blockProduct_apply _ _ p q
  · exact biasRows_apply b p q

end Cert.KernelIdeal.Payload

end
-- ==== Proof.Affine.lean ====
/-
  The edge-to-node projection as ONE function of its three arrays.

  Row `r` of the projected edge features is row `r` of the feature matrix `x` (1600000 × 128) times the
  weight matrix `w` (128 × 64), plus the bias row `b` (64 entries):

      affine x w b (r, j) = Σ_{k < 128} x (r, k) · w (k, j) + b j,

  read over the extended reals. A product of two extended reals and a finite sum of them are always defined, and
  nothing below moves a factor across a sum or cancels one, so no entry is assumed finite: the sum is the same
  sum however it is tiled over rows, and whether the 128 products are formed in one dot product over the whole
  matrix or block of rows by block of rows.
-/
import Idealize.ShloMosaic.PureOps.Ideal
import Idealize.ShloMosaic.Lib.ValueIdx

noncomputable section

namespace Cert.EdgeProjection

open Idealize.ShloMosaic Idealize.ShloMosaic.ValueIdx

/-- One entry of `x · w + b`: the dot product of row `r` of `x` with column `j` of `w`, plus `b j`. -/
def affineAt (x : (⟨2, ![1600000, 128]⟩ : Shape).Idx → EReal) (w : (⟨2, ![128, 64]⟩ : Shape).Idx → EReal)
    (b : (⟨1, ![64]⟩ : Shape).Idx → EReal) (r : Fin 1600000) (j : Fin 64) : EReal :=
  (∑ k : Fin 128, x (ix2 r k) * w (ix2 k j)) + b (ix1 j)

/-- The whole array `x · w + b`, entry by entry. -/
def affine (x : (⟨2, ![1600000, 128]⟩ : Shape).Idx → EReal) (w : (⟨2, ![128, 64]⟩ : Shape).Idx → EReal)
    (b : (⟨1, ![64]⟩ : Shape).Idx → EReal) : (⟨2, ![1600000, 64]⟩ : Shape).Idx → EReal :=
  fun i => affineAt x w b (i 0) (i 1)

theorem affine_apply (x : (⟨2, ![1600000, 128]⟩ : Shape).Idx → EReal) (w : (⟨2, ![128, 64]⟩ : Shape).Idx → EReal)
    (b : (⟨1, ![64]⟩ : Shape).Idx → EReal) (r : Fin 1600000) (j : Fin 64) :
    affine x w b (ix2 r j) = (∑ k : Fin 128, x (ix2 r k) * w (ix2 k j)) + b (ix1 j) := rfl

end Cert.EdgeProjection

end
-- ==== Proof.KernelArray.lean ====
/-
  The kernel's projected-features array after its 200 grid points.

  Point `t` of the grid handles rows 8000·t … 8000·t + 7999: it is given that block of rows of the features, the whole
  weight matrix and the bias row (the 64-entry bias reshaped to one row before the launch), and writes back the
  8000 × 64 block of `x · w + b` for those rows. The 200 blocks tile the 1600000 rows, so the array ends as
  `affine x w b` everywhere.
-/
import proofs.«427088_j18648747999739_3_alg».proof.Proof.Gen.KernelIdeal.Frame
import proofs.«427088_j18648747999739_3_alg».proof.Proof.KernelPayload
import proofs.«427088_j18648747999739_3_alg».proof.Proof.Affine
import Idealize.ShloMosaic.Lib.Pipeline.Value
import Idealize.ShloMosaic.Lib.ValueLayout
import Idealize.ShloMosaic.Lib.StableHlo.Run

set_option maxRecDepth 16384

noncomputable section

namespace Cert.KernelIdeal.Projected

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat Cfg Window)

variable (m : (ℓ : Loc nD τ sig) → Buf (Elt Ideal) ℓ)

theorem zero_offsets : (![0, 0] : Fin 2 → Nat) = fun _ => 0 := funext fun a => by fin_cases a <;> rfl

/-- The three argument arrays the projection reads, as launched. -/
abbrev feats (c : Dev nD) : S1600000x128.Idx → EReal := m ((c : Thread nD τ).loc main_arg0)
abbrev weights (c : Dev nD) : S128x64.Idx → EReal := m ((c : Thread nD τ).loc main_arg4)
abbrev bias (c : Dev nD) : S64.Idx → EReal := m ((c : Thread nD τ).loc main_arg5)

/-- The bias row the launch finds: the 64-entry bias read as a 1 × 64 matrix. -/
theorem biasRow_eq (c : Dev nD) :
    (V m c main_v0 : S1x64.Idx → EReal) = shapeCast S1x64 (bias m c) shapeCasts_S64_S1x64 := by
  show StableHlo.after hostOps0 (fun b => m (c, b)) (Proc.devRef .tc main_v0) = _
  after_results
  rfl

/-- How the four windows' block indices move with the grid point: the features' and the result's row block is the
    point itself, every other block index is 0. -/
theorem block_indices : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 199 ∧ win0_3.index t (1 : Fin 2) = 0 :=
  (by decide +kernel : ∀ t : Fin grid0.N, _)

/-- Every block of 8000 rows is some point's. -/
theorem block_onto : ∀ q0 : Fin 200, ∃ t : Fin cfg0.N, win0_3.index t = ![q0.val, 0] :=
  (by decide +kernel : ∀ q0 : Fin 200, ∃ t : Fin grid0.N, win0_3.index t = ![q0.val, 0])

/-- WHAT POINT `t` WRITES BACK is block `t` of `affine` of the three argument arrays. -/
theorem flushed_eq (c : Dev nD) (t : Fin cfg0.N) :
    (dats m 0 c).flushed 3 t = ((cfg0.win 3).blk t).view.read (Elt Ideal) (Cert.EdgeProjection.affine (feats m c) (weights m c) (bias m c)) := by
  show (cfg0.win 3).cut (grid0.coords t) ((dats m 0 c).after 3 t) = _
  rw [after0_3]
  unfold out0_3
  rw [View.canon_unit_zero zero_offsets]
  simp only [View.ld_unit_zero (S := S8000x128) zero_offsets, View.ld_unit_zero (S := S128x64) zero_offsets, View.ld_unit_zero (S := S1x64) zero_offsets]
  obtain ⟨e0, e1, e2, e3, e4, e5, e6, e7⟩ := block_indices t
  funext j
  obtain ⟨p, q, rfl⟩ : ∃ (p : Fin 8000) (q : Fin 64), j = ix2 p q := ⟨j 0, j 1, eq_ix2 j⟩
  show k0_pay1 (F := Ideal) (iblk m c 0 t) (iblk m c 1 t) (iblk m c 2 t) (ix2 p q)
    = Cert.EdgeProjection.affine (feats m c) (weights m c) (bias m c) (((cfg0.win 3).blk t).view.emb (ix2 p q))
  refine (Cert.KernelIdeal.Payload.stored_apply (iblk m c 0 t) (iblk m c 1 t) (iblk m c 2 t) p q).trans ?_
  have hp : p.val < 8000 := p.isLt
  -- the stored entry (p, q) of point `t` lands at row 8000·t + p, column q of the array
  have hrow : ((cfg0.win 3).blk t).view.emb (ix2 p q) = ix2 (⟨win0_3.index t (0 : Fin 2) * 8000 + p.val, by omega⟩ : Fin 1600000) q := by
    funext a; apply Fin.ext
    match a with
    | ⟨0, _⟩ => show win0_3.index t (0 : Fin 2) * 8000 + 1 * p.val = win0_3.index t (0 : Fin 2) * 8000 + p.val; omega
    | ⟨1, _⟩ => show win0_3.index t (1 : Fin 2) * 64 + 1 * q.val = q.val; omega
  rw [hrow, Cert.EdgeProjection.affine_apply]
  -- row p of the feature block is row 8000·t + p of the features
  have hx : ∀ k : Fin 128, iblk m c 0 t (ix2 p k)
      = feats m c (ix2 (⟨win0_3.index t (0 : Fin 2) * 8000 + p.val, by omega⟩ : Fin 1600000) k) := by
    intro k
    show V m c main_arg0 (((cfg0.win 0).blk t).view.emb (ix2 p k)) = _
    refine (congrFun (V_main_arg0 m c) _).trans (congrArg (feats m c) ?_)
    funext a; apply Fin.ext
    match a with
    | ⟨0, _⟩ => show win0_0.index t (0 : Fin 2) * 8000 + 1 * p.val = win0_3.index t (0 : Fin 2) * 8000 + p.val; omega
    | ⟨1, _⟩ => show win0_0.index t (1 : Fin 2) * 128 + 1 * k.val = k.val; omega
  -- the weight block is the whole weight matrix
  have hw : ∀ k : Fin 128, iblk m c 1 t (ix2 k q) = weights m c (ix2 k q) := by
    intro k
    show V m c main_arg4 (((cfg0.win 1).blk t).view.emb (ix2 k q)) = _
    refine (congrFun (V_main_arg4 m c) _).trans (congrArg (weights m c) ?_)
    funext a; apply Fin.ext
    match a with
    | ⟨0, _⟩ => show win0_1.index t (0 : Fin 2) * 128 + 1 * k.val = k.val; omega
    | ⟨1, _⟩ => show win0_1.index t (1 : Fin 2) * 64 + 1 * q.val = q.val; omega
  -- the bias block is the one bias row, which holds the bias entries
  have hb : iblk m c 2 t (ix2 0 q) = bias m c (ix1 q) := by
    show V m c main_v0 (((cfg0.win 2).blk t).view.emb (ix2 0 q)) = _
    have he : ((cfg0.win 2).blk t).view.emb (ix2 (0 : Fin 1) q) = ix2 (0 : Fin 1) q := by
      funext a; apply Fin.ext
      match a with
      | ⟨0, _⟩ => show win0_2.index t (0 : Fin 2) * 1 + 1 * 0 = 0; omega
      | ⟨1, _⟩ => show win0_2.index t (1 : Fin 2) * 64 + 1 * q.val = q.val; omega
    rw [he]
    refine (congrFun (biasRow_eq m c) _).trans ?_
    exact shapeCast_a_1a_apply (bias m c) shapeCasts_S64_S1x64 0 q
  rw [hb]
  refine congrArg (· + bias m c (ix1 q)) (Finset.sum_congr rfl fun k _ => ?_)
  rw [hx k, hw k]

/-- An index of the array is in point `t`'s block iff each coordinate is in the block's range on its axis. -/
theorem mem_block (t : Fin cfg0.N) (i : S1600000x64.Idx) :
    i ∈ ((cfg0.win 3).blk t).view.set ↔ ∀ a : Fin 2, win0_3.index t a * S8000x64.size a ≤ (i a).val ∧ (i a).val < win0_3.index t a * S8000x64.size a + S8000x64.size a := by
  show i ∈ ((View.whole main_v1).slice (win0_3.rect t)).set ↔ _
  rw [View.set_slice_whole, Rect.mem_set_unit]
  exact Iff.rfl

/-- The 200 row blocks tile the array: row `r` is in the block of point `r / 8000`. -/
theorem covered (i : S1600000x64.Idx) :
    ∃ t : Fin cfg0.N, (cfg0.win 3).flush t = true ∧ i ∈ ((cfg0.win 3).blk t).view.set := by
  have hi0 : (i 0).val < 1600000 := (i 0).isLt
  have hi1 : (i 1).val < 64 := (i 1).isLt
  obtain ⟨t, ht⟩ := block_onto ⟨(i 0).val / 8000, by omega⟩
  have q0 : win0_3.index t (0 : Fin 2) = (i 0).val / 8000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 8000 ≤ (i 0).val ∧ (i 0).val < win0_3.index t (0 : Fin 2) * 8000 + 8000; omega
  | ⟨1, _⟩ => show win0_3.index t (1 : Fin 2) * 64 ≤ (i 1).val ∧ (i 1).val < win0_3.index t (1 : Fin 2) * 64 + 64; omega

/-- THE PROJECTED FEATURES after the launch: `x · w + b` of the argument arrays, everywhere. -/
theorem projected (c : Dev nD) :
    (dats m 0 c).arrAt 3 cfg0.N = Cert.EdgeProjection.affine (feats m c) (weights m c) (bias m c) :=
  (dats m 0 c).arrAt_eq_of_cover 3 _ (fun t _ => flushed_eq m c t) covered

end Cert.KernelIdeal.Projected

end
-- ==== Proof.NodeTail.lean ====
/-
  From projected edge features to node features: the part both programs share.

  Given the projected features `xp` (1600000 × 64), the nonzeros of the sparse incidence matrix as three arrays of
  length 3200000 — node `rows`, edge `cols`, values `vals` — and the one slope `a`:

    * an edge index below zero is moved up by 1600000, and row `cols n` of `xp` is gathered for each nonzero `n`;
    * the gathered row is scaled by `vals n`;
    * the scaled rows are added into a 100000 × 64 array of zeros at row `rows n` (the aggregate);
    * where the aggregate is at least zero it is kept, elsewhere it is multiplied by the slope.

  Both programs spell these operations identically, so the certificate never looks inside: it shows that the two
  programs hand this function the same five arrays. It is stated at any float instance.
-/
import proofs.«427088_j18648747999739_3_alg».proof.Proof.Gen.ReferenceIdeal

noncomputable section

namespace Cert.NodeTail

open Cert.ReferenceIdeal Cert.ReferenceIdeal.Gen Idealize.ShloMosaic

variable {F : FTy → Type} [FloatOps F]

/-- The edge index of each nonzero as the gather takes it: a negative index moved up by the number of edges,
    as a one-column matrix. -/
def edgeIndex (cols : Vec F S3200000 .i32) : Vec F S3200000x1 .i32 :=
  broadcastInDim S3200000x1 ![0] bcast_S3200000_S3200000x1_0
    (select (cmpi .slt cols (broadcastInDim S3200000 ![] bcast_S_S3200000 (constantI S_ 32 0#32)))
      (addi cols (broadcastInDim S3200000 ![] bcast_S_S3200000 (constantI S_ 32 1600000#32))) cols)

/-- The aggregate: the gathered rows of `xp`, each scaled by its nonzero's value, added into zeros at its node row. -/
def aggregate (xp : FVec F S1600000x64 .f32) (rows cols : Vec F S3200000 .i32) (vals : FVec F S3200000 .f32) : FVec F S100000x64 .f32 :=
  Host.scatterAdd (F := F) scatter_S100000x64_S3200000x1_S3200000x64_1_0_0_1
    (broadcastInDim S100000x64 ![] bcast_S_S100000x64 (constant (F := F) S_ .f32 0x00000000#32))
    (broadcastInDim S3200000x1 ![0] bcast_S3200000_S3200000x1_0 rows)
    (mulf (broadcastInDim S3200000x64 ![0, 1] bcast_S3200000x1_S3200000x64_0_1 (broadcastInDim S3200000x1 ![0] bcast_S3200000_S3200000x1_0 vals))
      (Host.gather gather_S1600000x64_S3200000x1_S3200000x64_1_0_n_n_0_1_164 xp (edgeIndex (F := F) cols)))

/-- The node features: the aggregate where it is at least zero, the slope times the aggregate elsewhere. -/
def nodeFeatures (xp : FVec F S1600000x64 .f32) (rows cols : Vec F S3200000 .i32) (vals : FVec F S3200000 .f32)
    (a : FVec F S1 .f32) : FVec F S100000x64 .f32 :=
  select (cmpf .oge (aggregate xp rows cols vals) (broadcastInDim S100000x64 ![] bcast_S_S100000x64 (constant (F := F) S_ .f32 0x00000000#32)))
    (aggregate xp rows cols vals)
    (mulf (broadcastInDim S100000x64 ![] bcast_S_S100000x64 (shapeCast S_ a shapeCasts_S1_S_)) (aggregate xp rows cols vals))

end Cert.NodeTail

end
-- ==== Proof.LibAfterAppend.lean ====
/-
  Running two stretches of host operations one after the other.

  `StableHlo.after ops V` is the valuation of the buffers after the operations `ops` have run, in order, from the
  valuation `V`. Running a list that is two stretches joined is running the second stretch from what the first
  leaves. (The library has the one-operation steps `after_cons` and `after_nil`; this is their fold over the
  first stretch.) Useful wherever a program's host operations come as several stretches — a module-local function
  called from @main is a stretch of its own — and one wants to evaluate each stretch over a generic valuation.
-/
import Idealize.ShloMosaic.Lib.StableHlo.Run

namespace Cert.Lib

open Idealize.ShloMosaic Idealize.ShloMosaic.StableHlo

variable {τ : Topo} {sig : RefSig} {Val : EltTy → Type}

/-- The operations `ops₁ ++ ops₂` from `V` leave what `ops₂` leaves from what `ops₁` leaves from `V`. -/
theorem after_append (ops₁ ops₂ : List (HloOp τ sig Val)) (V : Valuation τ sig Val) :
    after (ops₁ ++ ops₂) V = after ops₂ (after ops₁ V) := by
  induction ops₁ generalizing V with
  | nil => rfl
  | cons op ops ih => exact ih (op.result V)

/-- Two stretches given as a list of lists, as a program's host operations after a launch are. -/
theorem after_flatten_pair (ops₁ ops₂ : List (HloOp τ sig Val)) (V : Valuation τ sig Val) :
    after (List.flatten [ops₁, ops₂]) V = after ops₂ (after ops₁ V) := by
  rw [List.flatten_cons, List.flatten_cons, List.flatten_nil, List.append_nil]
  exact after_append ops₁ ops₂ V

end Cert.Lib
-- ==== Proof.KernelResult.lean ====
/-
  The kernel program's result.

  After the launch the program applies the shared tail to the projected-features array the launch left, the three
  nonzero arrays and the slope, all as launched. With the array known to be `x · w + b`, the result is
  `nodeFeatures (affine x w b) rows cols vals a`.
-/
import proofs.«427088_j18648747999739_3_alg».proof.Proof.KernelArray
import proofs.«427088_j18648747999739_3_alg».proof.Proof.NodeTail
import proofs.«427088_j18648747999739_3_alg».proof.Proof.LibAfterAppend

set_option maxRecDepth 16384

noncomputable section

namespace Cert.KernelIdeal.Result

open Cert.KernelIdeal Cert.KernelIdeal.Gen Cert.KernelIdeal.Projected Idealize.ShloMosaic Idealize.ShloMosaic.TcCoe
open Idealize.SL.Sem Idealize.ShloMosaic.StableHlo

set_option maxHeartbeats 2000000 in
/-- The first stretch after the launch, run from ANY contents `W` of the buffers, leaves the aggregate of what `W`
    holds in the projected-features array and the three nonzero arrays. -/
theorem aggregate_after (W : Valuation τ sig (Elt Ideal)) :
    StableHlo.after (hostOps1 (F := Ideal)) W (Proc.devRef .tc main_v14)
      = Cert.NodeTail.aggregate (F := Ideal) (W (Proc.devRef .tc main_v1)) (W (Proc.devRef .tc main_arg1))
          (W (Proc.devRef .tc main_arg2)) (W (Proc.devRef .tc main_arg3)) := by
  simp only [hostOps1]
  after_results_simp
  rfl

set_option maxHeartbeats 2000000 in
/-- It leaves the mask "the aggregate is at least zero", -/
theorem mask_after (W : Valuation τ sig (Elt Ideal)) :
    StableHlo.after (hostOps1 (F := Ideal)) W (Proc.devRef .tc main_v17)
      = cmpf .oge (Cert.NodeTail.aggregate (F := Ideal) (W (Proc.devRef .tc main_v1)) (W (Proc.devRef .tc main_arg1))
            (W (Proc.devRef .tc main_arg2)) (W (Proc.devRef .tc main_arg3)))
          (broadcastInDim S100000x64 ![] bcast_S_S100000x64 (constant (F := Ideal) S_ .f32 0x00000000#32)) := by
  simp only [hostOps1]
  after_results_simp
  rfl

set_option maxHeartbeats 2000000 in
/-- and the slope times the aggregate. -/
theorem scaled_after (W : Valuation τ sig (Elt Ideal)) :
    StableHlo.after (hostOps1 (F := Ideal)) W (Proc.devRef .tc main_v19)
      = mulf (broadcastInDim S100000x64 ![] bcast_S_S100000x64 (shapeCast S_ (W (Proc.devRef .tc main_arg6)) shapeCasts_S1_S_))
          (Cert.NodeTail.aggregate (F := Ideal) (W (Proc.devRef .tc main_v1)) (W (Proc.devRef .tc main_arg1))
            (W (Proc.devRef .tc main_arg2)) (W (Proc.devRef .tc main_arg3))) := by
  simp only [hostOps1]
  after_results_simp
  rfl

/-- The second stretch is the one selection: from ANY contents `W'` it leaves, in the result buffer, the second
    buffer where the mask is set and the third elsewhere. -/
theorem select_after (W' : Valuation τ sig (Elt Ideal)) :
    StableHlo.after (hostOps1_1 (F := Ideal)) W' (Proc.devRef .tc main_v20)
      = select (W' (Proc.devRef .tc main_v17) : Vec Ideal S100000x64 .i1) (W' (Proc.devRef .tc main_v14) : Vec Ideal S100000x64 .f32)
          (W' (Proc.devRef .tc main_v19) : Vec Ideal S100000x64 .f32) := by
  simp only [hostOps1_1]
  after_results_simp
  rfl

/-- The operations after the launch, run from ANY contents `W` of the buffers, leave in the result buffer the node
    features of what `W` holds in the projected-features array, the three nonzero arrays and the slope: the
    program's lines are the shared tail's, one for one. -/
theorem tail_after (W : Valuation τ sig (Elt Ideal)) :
    StableHlo.after (List.flatten [hostOps1 (F := Ideal), hostOps1_1 (F := Ideal)]) W (Proc.devRef .tc main_v20)
      = Cert.NodeTail.nodeFeatures (F := Ideal) (W (Proc.devRef .tc main_v1)) (W (Proc.devRef .tc main_arg1))
          (W (Proc.devRef .tc main_arg2)) (W (Proc.devRef .tc main_arg3)) (W (Proc.devRef .tc main_arg6)) := by
  rw [Cert.Lib.after_flatten_pair, select_after, aggregate_after, mask_after, scaled_after]
  rfl

variable (m : (ℓ : Loc nD τ sig) → Buf (Elt Ideal) ℓ)

/-- THE RESULT BUFFER after the whole program: the node features of `x · w + b`. -/
theorem tail_eq (c : Dev nD) :
    Pipeline.afterTail₀ cfgs (dats m) 0 (V0 m) [hostOps1, hostOps1_1] c main_v20
      = Cert.NodeTail.nodeFeatures (F := Ideal) (Cert.EdgeProjection.affine (feats m c) (weights m c) (bias m c))
          (m ((c : Thread nD τ).loc main_arg1)) (m ((c : Thread nD τ).loc main_arg2)) (m ((c : Thread nD τ).loc main_arg3)) (m ((c : Thread nD τ).loc main_arg6)) := by
  unfold Pipeline.afterTail₀
  refine (tail_after _).trans ?_
  -- the launch's result array is the projection; the other four buffers are no array of the launch and are as launched
  have h1 := (Pipeline.withArrays_arr spec0 launch0.win.arr_inj c (V0 m c) (fun w => (dats m 0 c).arrAt w cfg0.N) 3).trans (projected m c)
  have h2 := (Pipeline.withArrays_of_ne spec0 c (V0 m c) (fun w => (dats m 0 c).arrAt w cfg0.N) main_arg1
    (by exact (by decide : ∀ w, Pipeline.arrRef spec0 w ≠ main_arg1))).trans (V_main_arg1 m c)
  have h3 := (Pipeline.withArrays_of_ne spec0 c (V0 m c) (fun w => (dats m 0 c).arrAt w cfg0.N) main_arg2
    (by exact (by decide : ∀ w, Pipeline.arrRef spec0 w ≠ main_arg2))).trans (V_main_arg2 m c)
  have h4 := (Pipeline.withArrays_of_ne spec0 c (V0 m c) (fun w => (dats m 0 c).arrAt w cfg0.N) main_arg3
    (by exact (by decide : ∀ w, Pipeline.arrRef spec0 w ≠ main_arg3))).trans (V_main_arg3 m c)
  have h5 := (Pipeline.withArrays_of_ne spec0 c (V0 m c) (fun w => (dats m 0 c).arrAt w cfg0.N) main_arg6
    (by exact (by decide : ∀ w, Pipeline.arrRef spec0 w ≠ main_arg6))).trans (V_main_arg6 m c)
  exact congr (congr (congr (congr (congrArg (Cert.NodeTail.nodeFeatures (F := Ideal)) h1) h2) h3) h4) h5

/-- Every weakly fair execution of the kernel program ends with its result at the node features of `x · w + b` and
    its arguments as launched: the launch's two staged arguments are read back off its arrays, the other five are
    buffers no operation writes. -/
theorem run (ρ : Dev nD → PrngReg) :
    θ_run defs (onTc (τ := τ) (main (F := Ideal))) ⟨m, fun _ => 0, ρ⟩ fun r => ∀ c : Dev nD,
      r.2.mem ((c.tc : Thread nD τ).loc main_v20)
        = Cert.NodeTail.nodeFeatures (F := Ideal) (Cert.EdgeProjection.affine (feats m c) (weights m c) (bias m c))
            (m ((c.tc : Thread nD τ).loc main_arg1)) (m ((c.tc : Thread nD τ).loc main_arg2)) (m ((c.tc : Thread nD τ).loc main_arg3)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    ⟨((h c).2 main_v20 (Pipeline.mem_restRefs_of main_v20 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 1).trans (((dats m 0 c).arrAt_in 1 rfl _).trans ((A_eq m c 1).trans (V_main_arg4 m c))),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Result

end
-- ==== Proof.RefProjection.lean ====
/-
  The reference's projection stage is `affine`.

  The reference forms `x · w` as one dot product over the whole 1600000 × 128 matrix, broadcasts the bias
  (64 entries → one row → 1600000 rows) and adds. Read at entry (r, j) that is Σ_k x (r, k) · w (k, j) + b j.
-/
import proofs.«427088_j18648747999739_3_alg».proof.Proof.Gen.ReferenceIdeal.Read
import proofs.«427088_j18648747999739_3_alg».proof.Proof.Affine

noncomputable section

namespace Cert.ReferenceIdeal.Projection

open Cert.ReferenceIdeal Cert.ReferenceIdeal.Gen Cert.ReferenceIdeal.Read Idealize.ShloMosaic Idealize.ShloMosaic.ValueIdx

/-- The reference's projected features, as its program spells them, are `x · w + b` entry by entry. -/
theorem stage_eq (x : FVec Ideal S1600000x128 .f32) (w : FVec Ideal S128x64 .f32) (b : FVec Ideal S64 .f32) :
    addf (F := Ideal) (Host.dotGeneral (F := Ideal) dot_S1600000x128_S128x64_S1600000x64_1_0_0_1_n_n none x w)
        (broadcastInDim S1600000x64 ![0, 1] bcast_S1x64_S1600000x64_0_1 (broadcastInDim S1x64 ![1] bcast_S64_S1x64_1 b))
      = Cert.EdgeProjection.affine x w b := by
  show val_main_v3 (F := Ideal) x w b = _
  funext i
  obtain ⟨r, j, rfl⟩ : ∃ (r : Fin 1600000) (j : Fin 64), i = ix2 r j := ⟨i 0, i 1, eq_ix2 i⟩
  rw [val_main_v3_apply, val_main_v0_apply, val_main_v2_apply, val_main_v1_apply, Cert.EdgeProjection.affine_apply]
  have el : ∀ k : Fin 128, lidx_main_v0 (ix2 r j) k = ix2 r k := fun k => funext fun a => Fin.ext (by
    match a with
    | ⟨0, _⟩ => rfl
    | ⟨1, _⟩ => rfl)
  have er : ∀ k : Fin 128, ridx_main_v0 (ix2 r j) k = ix2 k j := fun k => funext fun a => Fin.ext (by
    match a with
    | ⟨0, _⟩ => rfl
    | ⟨1, _⟩ => rfl)
  have eb : idx_main_v1 (idx_main_v2 (ix2 r j)) = ix1 j := funext fun a => Fin.ext (by
    match a with
    | ⟨0, _⟩ => rfl)
  simp only [el, er, eb]
  rfl

end Cert.ReferenceIdeal.Projection

end
-- ==== Proof.RefResult.lean ====
/-
  The reference program's result.

  The reference applies the shared tail to its own projection stage, which is `x · w + b` entry by entry; so its
  result is `nodeFeatures (affine x w b) rows cols vals a` of its argument arrays, the arguments unchanged.
-/
import proofs.«427088_j18648747999739_3_alg».proof.Proof.Gen.ReferenceIdeal.Run
import proofs.«427088_j18648747999739_3_alg».proof.Proof.RefProjection
import proofs.«427088_j18648747999739_3_alg».proof.Proof.NodeTail

noncomputable section

namespace Cert.ReferenceIdeal.Result

open Cert.ReferenceIdeal Cert.ReferenceIdeal.Gen Idealize.ShloMosaic Idealize.ShloMosaic.TcCoe Idealize.SL.Sem

/-- Every weakly fair execution of the reference ends with its result at the node features of `x · w + b` and its
    arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22)
        = Cert.NodeTail.nodeFeatures (F := Ideal)
            (Cert.EdgeProjection.affine (m ((c.tc : Thread nD τ).loc main_arg0)) (m ((c.tc : Thread nD τ).loc main_arg4)) (m ((c.tc : Thread nD τ).loc main_arg5)))
            (m ((c.tc : Thread nD τ).loc main_arg1)) (m ((c.tc : Thread nD τ).loc main_arg2)) (m ((c.tc : Thread nD τ).loc main_arg3)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      ⟨(h c).1.trans (congrArg (fun xp => Cert.NodeTail.nodeFeatures (F := Ideal) xp
            (m ((c.tc : Thread nD τ).loc main_arg1)) (m ((c.tc : Thread nD τ).loc main_arg2)) (m ((c.tc : Thread nD τ).loc main_arg3)) (m ((c.tc : Thread nD τ).loc main_arg6)))
          (Cert.ReferenceIdeal.Projection.stage_eq (m ((c.tc : Thread nD τ).loc main_arg0)) (m ((c.tc : Thread nD τ).loc main_arg4)) (m ((c.tc : Thread nD τ).loc main_arg5)))),
        (h c).2⟩)
    (Cert.ReferenceIdeal.Value.run (F := Ideal) m ρ)

end Cert.ReferenceIdeal.Result

end
-- ==== Proof.lean ====
/-
  Edge features projected and aggregated onto nodes: the kernel program and its reference agree over the
  extended reals.

  Both programs take edge features `x` (1600000 × 128), a sparse incidence matrix given by its nonzeros (node rows,
  edge columns, values; 3200000 of each), a weight matrix `w` (128 × 64), a bias `b` (64) and one slope `a`, and
  return node features (100000 × 64):

    1. project:    xp (r, j) = Σ_{k < 128} x (r, k) · w (k, j) + b j;
    2. aggregate:  for each nonzero n, add vals n · xp (cols n, ·) into row (rows n) of an array of zeros;
    3. activate:   keep an entry that is at least zero, multiply any other by the slope.

  They differ only in step 1. The kernel program computes it 8000 rows at a time on a grid of 200 points, each
  point multiplying its block of rows (narrowed to half width) by the narrowed weights into a zero accumulator and
  adding the bias row; the reference computes one dot product over the whole matrix and adds the broadcast bias.
  Over the extended reals narrowing is the identity, the zero accumulator adds nothing, and the 200 blocks tile the
  rows, so both arrays are `affine x w b` entry by entry (Proof/KernelPayload, Proof/KernelArray for the kernel,
  Proof/RefProjection for the reference). No law that needs a finite entry is used — a sum is only re-tiled, never
  distributed over — so the precondition is never opened.

  Steps 2 and 3 are spelt identically in the two programs. They are named as one function `nodeFeatures`
  (Proof/NodeTail) that is never opened: each program is shown to apply it to `affine x w b` and to the same four
  other arrays (Proof/KernelResult, Proof/RefResult).

  The three frames: the kernel programs' are the launch's frame run read at the argument arrays; the reference's is
  its run with the result dropped. The idealized kernel is the kernel's own text read over the extended reals (no
  operation was rewritten), so there is nothing to preserve.
-/
import proofs.«427088_j18648747999739_3_alg».proof.Defs
import proofs.«427088_j18648747999739_3_alg».proof.Proof.Gen.Kernel
import proofs.«427088_j18648747999739_3_alg».proof.Proof.Gen.Kernel.Skeleton
import proofs.«427088_j18648747999739_3_alg».proof.Proof.Gen.Kernel.Launch
import proofs.«427088_j18648747999739_3_alg».proof.Proof.Gen.Kernel.Points
import proofs.«427088_j18648747999739_3_alg».proof.Proof.Gen.Kernel.Frame
import proofs.«427088_j18648747999739_3_alg».proof.Proof.Gen.KernelIdeal
import proofs.«427088_j18648747999739_3_alg».proof.Proof.Gen.KernelIdeal.Skeleton
import proofs.«427088_j18648747999739_3_alg».proof.Proof.Gen.KernelIdeal.Launch
import proofs.«427088_j18648747999739_3_alg».proof.Proof.Gen.KernelIdeal.Points
import proofs.«427088_j18648747999739_3_alg».proof.Proof.Gen.KernelIdeal.Frame
import proofs.«427088_j18648747999739_3_alg».proof.Proof.Gen.ReferenceIdeal
import proofs.«427088_j18648747999739_3_alg».proof.Proof.Gen.Pre_finite_inputs
import proofs.«427088_j18648747999739_3_alg».proof.Proof.Gen.ReferenceIdeal.Run
import proofs.«427088_j18648747999739_3_alg».proof.Proof.Gen.ReferenceIdeal.Read
import proofs.«427088_j18648747999739_3_alg».proof.Proof.KernelResult
import proofs.«427088_j18648747999739_3_alg».proof.Proof.RefResult
import Idealize.ShloMosaic.Adequacy
import Idealize.ShloMosaic.Init

noncomputable section

namespace Cert.Proof

open Idealize.ShloMosaic Idealize.SL.Sem

/-- The kernel program as printed runs and leaves its arguments unchanged. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten when it was read over the extended reals. -/
theorem preserves : Cert.preserves_Kernel_KernelIdeal := trivial

/-- From memories that agree on the seven arguments both programs end with the node features of `x · w + b`: the
    kernel program by its run, the reference by its own, the arguments' agreement carrying one statement to the other. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Result.run m' ρ')
  rw [(hagree c).1, (hagree c).2.1, (hagree c).2.2.1, (hagree c).2.2.2.1, (hagree c).2.2.2.2.1, (hagree c).2.2.2.2.2.1,
    (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
